-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S320000 : Shape := ⟨1, ![320000]⟩
abbrev S320000x256 : Shape := ⟨2, ![320000, 256]⟩
abbrev S769x256 : Shape := ⟨2, ![769, 256]⟩
abbrev S256 : Shape := ⟨1, ![256]⟩
abbrev S256x256 : Shape := ⟨2, ![256, 256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000 : S_.BroadcastsInDim S320000 (![] : Fin 0 → Fin S320000.rank)
  reducesTo_S320000_S_d0 : S320000.ReducesTo [0] S_
  bcast_S_S320000x256 : S_.BroadcastsInDim S320000x256 (![] : Fin 0 → Fin S320000x256.rank)
  reducesTo_S320000x256_S_d0_1 : S320000x256.ReducesTo [0, 1] S_
  bcast_S_S769x256 : S_.BroadcastsInDim S769x256 (![] : Fin 0 → Fin S769x256.rank)
  reducesTo_S769x256_S_d0_1 : S769x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_arg6 : FVec F S256x256 .f32) (main_arg7 : FVec F S256 .f32) (main_v13 : IVec S_ 1) (main_v16 : IVec S769x256 1) : IVec S_ 1 :=
  let main_c_5 : IVec S_ 1 := constantI S_ 1 1#1
  let main_v17 : IVec S_ 1 := (fun x v => Host.reduce IntOp.andi x v reducesTo_S769x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S10000x256 .f32) (main_arg1 : IVec S2x320000 32) (main_arg2 : FVec F S320000 .f32) (main_arg3 : FVec F S320000x256 .f32) (main_arg4 : FVec F S769x256 .f32) (main_arg5 : FVec F S256 .f32) (main_arg6 : FVec F S256x256 .f32) (main_arg7 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000 .f32 := Host.absf main_arg2
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S320000x256 .f32 := Host.absf main_arg3
  let main_cst_2 : FVec F S_ .f32 := constant S_ .f32 0x7F800000#32
  let main_v10 : FVec F S320000x256 .f32 := broadcastInDim S320000x256 ![] bcast_S_S320000x256 main_cst_2
  let main_v11 : IVec S320000x256 1 := cmpf .olt main_v9 main_v10
  let main_c_3 : IVec S_ 1 := constantI S_ 1 1#1
  let main_v12 : IVec S_ 1 := (fun x v => Host.reduce IntOp.andi x v reducesTo_S320000x256_S_d0_1 h_S_) main_v11 main_c_3
  let main_v13 : IVec S_ 1 := andi main_v8 main_v12
  let main_v14 : FVec F S769x256 .f32 := Host.absf main_arg4
  let main_cst_4 : FVec F S_ .f32 := constant S_ .f32 0x7F800000#32
  let main_v15 : FVec F S769x256 .f32 := broadcastInDim S769x256 ![] bcast_S_S769x256 main_cst_4
  let main_v16 : IVec S769x256 1 := cmpf .olt main_v14 main_v15
  fn_part1 (F := F) main_arg5 main_arg6 main_arg7 main_v13 main_v16
-- ==== Kernel.lean ====
abbrev S10000x256 : Shape := ⟨2, ![10000, 256]⟩
abbrev S2x320000 : Shape := ⟨2, ![2, 320000]⟩
abbrev S320000 : Shape := ⟨1, ![320000]⟩
abbrev S320000x256 : Shape := ⟨2, ![320000, 256]⟩
abbrev S769x256 : Shape := ⟨2, ![769, 256]⟩
abbrev S256 : Shape := ⟨1, ![256]⟩
abbrev S256x256 : Shape := ⟨2, ![256, 256]⟩
abbrev S1x320000 : Shape := ⟨2, ![1, 320000]⟩
abbrev S_ : Shape := ⟨0, ![]⟩
abbrev S320000x1 : Shape := ⟨2, ![320000, 1]⟩
abbrev S320000x769 : Shape := ⟨2, ![320000, 769]⟩
abbrev S1x256 : Shape := ⟨2, ![1, 256]⟩
abbrev S3200x769 : Shape := ⟨2, ![3200, 769]⟩
abbrev S3200x256 : Shape := ⟨2, ![3200, 256]⟩

abbrev nBuf : Space → Nat
  | .hbm => 38
  | .vmem => 8
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000, .f32⟩
  | .hbm, ⟨3, _⟩ => ⟨S320000x256, .f32⟩
  | .hbm, ⟨4, _⟩ => ⟨S769x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x256, .f32⟩
  | .hbm, ⟨30, _⟩ => ⟨S320000x1, .f32⟩
  | .hbm, ⟨31, _⟩ => ⟨S320000x769, .f32⟩
  | .hbm, ⟨32, _⟩ => ⟨S320000x769, .bf16⟩
  | .hbm, ⟨33, _⟩ => ⟨S769x256, .bf16⟩
  | .hbm, ⟨34, _⟩ => ⟨S256x256, .bf16⟩
  | .hbm, ⟨35, _⟩ => ⟨S1x256, .f32⟩
  | .hbm, ⟨36, _⟩ => ⟨S1x256, .f32⟩
  | .hbm, ⟨37, _⟩ => ⟨S320000x256, .f32⟩
  | .local _ .vmem, ⟨0, _⟩ => ⟨S3200x769, .bf16⟩
  | .local _ .vmem, ⟨1, _⟩ => ⟨S3200x769, .bf16⟩
  | .local _ .vmem, ⟨2, _⟩ => ⟨S769x256, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S3200x256, .f32⟩
  | .local _ .vmem, ⟨7, _⟩ => ⟨S3200x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x769 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S769x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3200x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x256_S320000x1_S320000x769_d1 : Shape.Concatenates [S320000x256, S320000x256, S320000x256, S320000x1] S320000x769 1
  bitsLt_bf16_f32 : FTy.bits .bf16 < FTy.bits .f32
  shapeCasts_S256_S1x256 : S256.ShapeCasts S1x256
  inb_S3200x769_S3200x769_0_0 : ∀ a, (![0, 0] : Fin 2 → Nat) a + S3200x769.size a ≤ S3200x769.size a
  h_S3200x769 : 0 < S3200x769.numel
  shapeCasts_S3200x769_S3200x769 : S3200x769.ShapeCasts S3200x769
  inb_S769x256_S769x256_0_0 : ∀ a, (![0, 0] : Fin 2 → Nat) a + S769x256.size a ≤ S769x256.size a
  h_S769x256 : 0 < S769x256.numel
  shapeCasts_S769x256_S769x256 : S769x256.ShapeCasts S769x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3200x256 : S1x256.Broadcasts S3200x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S3200x256_S3200x256_0_0 : ∀ a, (![0, 0] : Fin 2 → Nat) a + S3200x256.size a ≤ S3200x256.size a
  h_S3200x256 : 0 < S3200x256.numel
  gather_S10000x256_S320000x1_S320000x256_1_0_n_n_0_1_1256_wf : GatherDims.WF S10000x256 S320000x1 S320000x256 [1] [0] [] [0] [] 1 ![1, 256]
  dot_S3200x769_S769x256_S3200x256_1_0_0_1_n_n_wf : DotDims.WF S3200x769 S769x256 S3200x256 [1] [0] [0] [1] [] []
  dot_S3200x256_S256x256_S3200x256_1_0_0_1_n_n_wf : DotDims.WF S3200x256 S256x256 S3200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x769.size a ≤ S320000x769.size a
  hwx0_0 : ∀ i : grid0.Coords, EltTy.bits .bf16 = 32 ∨ (Rect.block (s := S320000x769) S3200x769.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S769x256.size a ≤ S769x256.size a
  hwx0_1 : ∀ i : grid0.Coords, EltTy.bits .bf16 = 32 ∨ (Rect.block (s := S769x256) S769x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3200x256.size a ≤ S320000x256.size a
  hwx0_5 : ∀ i : grid0.Coords, EltTy.bits .f32 = 32 ∨ (Rect.block (s := S320000x256) S3200x256.size (cc0_transform_5 i) (hinb0_5 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S3200x769_S769x256_S3200x256_1_0_0_1_n_n : DotDims S3200x769 S769x256 S3200x256 where
  lhsContracting := [1]
  rhsContracting := [0]
  lhsNonContracting := [0]
  rhsNonContracting := [1]
  lhsBatch := []
  rhsBatch := []
  wf := dot_S3200x769_S769x256_S3200x256_1_0_0_1_n_n_wf
def dot_S3200x256_S256x256_S3200x256_1_0_0_1_n_n : DotDims S3200x256 S256x256 S3200x256 where
  lhsContracting := [1]
  rhsContracting := [0]
  lhsNonContracting := [0]
  rhsNonContracting := [1]
  lhsBatch := []
  rhsBatch := []
  wf := dot_S3200x256_S256x256_S3200x256_1_0_0_1_n_n_wf

abbrev win0_0 : Pipeline.Window sig grid0 :=
  Pipeline.Window.ofSpec (Memref.whole main_v20) S3200x769.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S769x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S3200x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S320000 : Shape := ⟨1, ![320000]⟩
abbrev S320000x256 : Shape := ⟨2, ![320000, 256]⟩
abbrev S769x256 : Shape := ⟨2, ![769, 256]⟩
abbrev S256 : Shape := ⟨1, ![256]⟩
abbrev S256x256 : Shape := ⟨2, ![256, 256]⟩
abbrev S1x320000 : Shape := ⟨2, ![1, 320000]⟩
abbrev S_ : Shape := ⟨0, ![]⟩
abbrev S320000x1 : Shape := ⟨2, ![320000, 1]⟩
abbrev S320000x769 : Shape := ⟨2, ![320000, 769]⟩
abbrev S1x256 : Shape := ⟨2, ![1, 256]⟩

abbrev nBuf : Space → Nat
  | .hbm => 49
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S320000, .f32⟩
  | .hbm, ⟨3, _⟩ => ⟨S320000x256, .f32⟩
  | .hbm, ⟨4, _⟩ => ⟨S769x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x320000, .i32⟩
  | .hbm, ⟨9, _⟩ => ⟨S320000, .i32⟩
  | .hbm, ⟨10, _⟩ => ⟨S1x320000, .i32⟩
  | .hbm, ⟨11, _⟩ => ⟨S320000, .i32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S320000x256, .f32⟩
  | .hbm, ⟨21, _⟩ => ⟨S_, .i32⟩
  | .hbm, ⟨22, _⟩ => ⟨S320000, .i32⟩
  | .hbm, ⟨23, _⟩ => ⟨S320000, .i1⟩
  | .hbm, ⟨24, _⟩ => ⟨S_, .i32⟩
  | .hbm, ⟨25, _⟩ => ⟨S320000, .i32⟩
  | .hbm, ⟨26, _⟩ => ⟨S320000, .i32⟩
  | .hbm, ⟨27, _⟩ => ⟨S320000, .i32⟩
  | .hbm, ⟨28, _⟩ => ⟨S320000x1, .i32⟩
  | .hbm, ⟨29, _⟩ => ⟨S320000x256, .f32⟩
  | .hbm, ⟨30, _⟩ => ⟨S320000x1, .f32⟩
  | .hbm, ⟨31, _⟩ => ⟨S320000x769, .f32⟩
  | .hbm, ⟨32, _⟩ => ⟨S320000x256, .f32⟩
  | .hbm, ⟨33, _⟩ => ⟨S1x256, .f32⟩
  | .hbm, ⟨34, _⟩ => ⟨S320000x256, .f32⟩
  | .hbm, ⟨35, _⟩ => ⟨S320000x256, .f32⟩
  | .hbm, ⟨36, _⟩ => ⟨S320000x256, .f32⟩
  | .hbm, ⟨37, _⟩ => ⟨S320000x256, .f32⟩
  | .hbm, ⟨38, _⟩ => ⟨S_, .f32⟩
  | .hbm, ⟨39, _⟩ => ⟨S320000x256, .f32⟩
  | .hbm, ⟨40, _⟩ => ⟨S320000x256, .f32⟩
  | .hbm, ⟨41, _⟩ => ⟨S_, .f32⟩
  | .hbm, ⟨42, _⟩ => ⟨S320000x256, .f32⟩
  | .hbm, ⟨43, _⟩ => ⟨S320000x256, .f32⟩
  | .hbm, ⟨44, _⟩ => ⟨S320000x256, .f32⟩
  | .hbm, ⟨45, _⟩ => ⟨S320000x256, .f32⟩
  | .hbm, ⟨46, _⟩ => ⟨S1x256, .f32⟩
  | .hbm, ⟨47, _⟩ => ⟨S320000x256, .f32⟩
  | .hbm, ⟨48, _⟩ => ⟨S320000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x256_S320000x256_S320000x256_S320000x1_S320000x769_d1 : Shape.Concatenates [S320000x256, S320000x256, S320000x256, S320000x1] S320000x769 1
  bcast_S256_S1x256_1 : S256.BroadcastsInDim S1x256 (![1] : Fin 1 → Fin S1x256.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  gather_S10000x256_S320000x1_S320000x256_1_0_n_n_0_1_1256_wf : GatherDims.WF S10000x256 S320000x1 S320000x256 [1] [0] [] [0] [] 1 ![1, 256]
  dot_S320000x769_S769x256_S320000x256_1_0_0_1_n_n_wf : DotDims.WF S320000x769 S769x256 S320000x256 [1] [0] [0] [1] [] []
  dot_S320000x256_S256x256_S320000x256_1_0_0_1_n_n_wf : DotDims.WF S320000x256 S256x256 S320000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x769_S769x256_S320000x256_1_0_0_1_n_n : DotDims S320000x769 S769x256 S320000x256 where
  lhsContracting := [1]
  rhsContracting := [0]
  lhsNonContracting := [0]
  rhsNonContracting := [1]
  lhsBatch := []
  rhsBatch := []
  wf := dot_S320000x769_S769x256_S320000x256_1_0_0_1_n_n_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf

class Facts : Prop extends Facts₀ where

variable [Facts]
-- ==== Proof.KernelRegion.lean ====
/-
  The launch of the one kernel region and what it leaves behind, for any float instance.

  The program first runs its host operations (two row gathers from the node table by the sender and receiver
  indices, the four-way join of the gathered rows, the edge state and the edge length along the feature axis, the
  casts and reshapes of the weights and biases), then one kernel region over 100 grid points.  At point `t` the
  region stages rows `3200 t … 3200 t + 3199` of the joined activation, the whole of both weight matrices and both
  bias rows, and writes back rows `3200 t … 3200 t + 3199` of the result.  The body reads its five input buffers
  whole, also reads the output buffer (a value it never uses), and stores one value over the whole output buffer:
  the two-layer perceptron of the staged rows.  So after the body the output buffer holds that value whatever it
  held before, the input buffers are as they were, and nothing else is touched: this is all the pipeline's launch
  theorem asks, and its conclusion names the result array block by block and leaves every other array as the host
  operations left it.  The argument arrays are written by no host operation and staged by no window, so they end as
  launched.
-/
import proofs.«105628_j35691178230144_1_alg».proof.Proof.Gen.Kernel.Launch
import proofs.«105628_j35691178230144_1_alg».proof.Proof.Gen.Kernel.Skeleton
import proofs.«105628_j35691178230144_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s buffers hold when the region is entered: the launch contents run through the host operations. -/
abbrev atEntry (c : Dev nD) (b : Ref sig .tc) : Buf (Elt F) ((c : Thread nD τ).loc b) :=
  StableHlo.after hostOps0 (fun b => m (c, b)) b

/-- No host operation allocates a buffer. -/
theorem hostOps0_noAlloc : (hostOps0 : List (HloOp τ sig (Elt F))).Forall fun op => op.fresh = ∅ := by
  simp only [List.Forall]; repeat' constructor

/-- The program is its host operations followed by the region. -/
theorem main_upto (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_noAlloc main_chain

/-- A buffer no host operation writes is found by the region as launched. -/
theorem atEntry_of_unwritten (c : Dev nD) (b : Ref sig .tc)
    (h : ∀ op ∈ (hostOps0 : List (HloOp τ sig (Elt F))), Proc.devRef .tc b ∉ op.writes) :
    atEntry m c b = m ((c : Thread nD τ).loc b) :=
  StableHlo.after_of_forall_not_mem (b := Proc.devRef .tc b) _ _ h

/-! ## The argument arrays are written by no host operation -/

section Unwritten
local macro "unwritten" : tactic => `(tactic|
  (refine List.forall_iff_forall_mem.mp ?_
   simp only [hostOps0, List.Forall, StableHlo.nullary_writes, StableHlo.unary_writes, StableHlo.binary_writes,
     StableHlo.ternary_writes, StableHlo.nary_writes, StableHlo.reshape_writes, Finset.mem_singleton]
   repeat' apply And.intro
   all_goals exact StableHlo.devRef_ne_of_ne (by decide)))

theorem atEntry_arg0 (c : Dev nD) : atEntry m c main_arg0 = m ((c : Thread nD τ).loc main_arg0) :=
  atEntry_of_unwritten m c main_arg0 (by unwritten)
theorem atEntry_arg1 (c : Dev nD) : atEntry m c main_arg1 = m ((c : Thread nD τ).loc main_arg1) :=
  atEntry_of_unwritten m c main_arg1 (by unwritten)
theorem atEntry_arg2 (c : Dev nD) : atEntry m c main_arg2 = m ((c : Thread nD τ).loc main_arg2) :=
  atEntry_of_unwritten m c main_arg2 (by unwritten)
theorem atEntry_arg3 (c : Dev nD) : atEntry m c main_arg3 = m ((c : Thread nD τ).loc main_arg3) :=
  atEntry_of_unwritten m c main_arg3 (by unwritten)
theorem atEntry_arg4 (c : Dev nD) : atEntry m c main_arg4 = m ((c : Thread nD τ).loc main_arg4) :=
  atEntry_of_unwritten m c main_arg4 (by unwritten)
theorem atEntry_arg5 (c : Dev nD) : atEntry m c main_arg5 = m ((c : Thread nD τ).loc main_arg5) :=
  atEntry_of_unwritten m c main_arg5 (by unwritten)
theorem atEntry_arg6 (c : Dev nD) : atEntry m c main_arg6 = m ((c : Thread nD τ).loc main_arg6) :=
  atEntry_of_unwritten m c main_arg6 (by unwritten)
theorem atEntry_arg7 (c : Dev nD) : atEntry m c main_arg7 = m ((c : Thread nD τ).loc main_arg7) :=
  atEntry_of_unwritten m c main_arg7 (by unwritten)
end Unwritten

/-! ## The staged blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! An input window's current staging buffer holds its block at every point, whether the point fetches it or not (a
    window that is not fetched has not moved), for any proof data over the entry contents whose body leaves the block
    in place.  One statement per input window: the activation rows, the first weight matrix, the first bias row, the
    second weight matrix, the second bias row. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The arguments after the run -/

/-- A run that leaves every buffer outside the region as the region found it leaves the argument arrays as launched:
    no window stages an argument array and no host operation writes one. -/
theorem args_kept (dats : (p : Fin 1) → (c : Dev nD) → Dat τ (Elt F) Unit ℕ (UR sig nD τ) ℕ (cfgs p) c)
    (r : PUnit × MemSt nD τ sig (Elt F)) (h : Pipeline.FramePost cfgs dats 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (atEntry_arg0 m c),
   ((h c).2 main_arg1 (Pipeline.mem_restRefs_of main_arg1 (by decide) (by decide))).trans (atEntry_arg1 m c),
   ((h c).2 main_arg2 (Pipeline.mem_restRefs_of main_arg2 (by decide) (by decide))).trans (atEntry_arg2 m c),
   ((h c).2 main_arg3 (Pipeline.mem_restRefs_of main_arg3 (by decide) (by decide))).trans (atEntry_arg3 m c),
   ((h c).2 main_arg4 (Pipeline.mem_restRefs_of main_arg4 (by decide) (by decide))).trans (atEntry_arg4 m c),
   ((h c).2 main_arg5 (Pipeline.mem_restRefs_of main_arg5 (by decide) (by decide))).trans (atEntry_arg5 m c),
   ((h c).2 main_arg6 (Pipeline.mem_restRefs_of main_arg6 (by decide) (by decide))).trans (atEntry_arg6 m c),
   ((h c).2 main_arg7 (Pipeline.mem_restRefs_of main_arg7 (by decide) (by decide))).trans (atEntry_arg7 m c)⟩

/-! ## The body -/

abbrev rX : Rect S3200x769 := Rect.unit (s := S3200x769) ![0, 0] S3200x769.size inb_S3200x769_S3200x769_0_0
abbrev rW1 : Rect S769x256 := Rect.unit (s := S769x256) ![0, 0] S769x256.size inb_S769x256_S769x256_0_0
abbrev rB : Rect S1x256 := Rect.unit (s := S1x256) ![0, 0] S1x256.size inb_S1x256_S1x256_0_0
abbrev rW2 : Rect S256x256 := Rect.unit (s := S256x256) ![0, 0] S256x256.size inb_S256x256_S256x256_0_0
abbrev rOut : Rect S3200x256 := Rect.unit (s := S3200x256) ![0, 0] S3200x256.size inb_S3200x256_S3200x256_0_0

/-- What the output buffer holds after the body, from the five input buffers' contents: the one store, over the
    whole buffer, of the perceptron of the loaded values. -/
def bodyOut (x : Vec F S3200x769 .bf16) (w1 : Vec F S769x256 .bf16) (b1 : Vec F S1x256 .f32) (w2 : Vec F S256x256 .bf16) (b2 : Vec F S1x256 .f32) : Vec F S3200x256 .f32 :=
  View.canon [⟨rOut, k0_pay1 (View.ld x rX) (View.ld w1 rW1) (View.ld b1 rB) (View.ld w2 rW2) (View.ld b2 rB)⟩]

/-- The one store covers the buffer. -/
theorem bodyOut_cover (p0 : Vec F S3200x256 .f32) (y : S3200x256.Idx) :
    ∃ pc ∈ ([⟨rOut, p0⟩] : List (View.Piece (Elt F) S3200x256 .f32)), y ∈ pc.1.set :=
  View.cover_of_tiled [⟨rOut, p0⟩] S3200x256.size (by rfl) y

set_option maxHeartbeats 1000000 in
/-- The body on whole staging buffers, the inputs' at known contents and the output's at anything, runs to a state
    with the inputs' as they were and the output's at `bodyOut` of them. -/
theorem body_triple (c : Dev nD) (E : Set ℕ) (i : grid0.Coords)
    (arg1 : Memref sig .tc .vmem S3200x769 .bf16) (harg1 : arg1.IsWhole) (arg2 : Memref sig .tc .vmem S769x256 .bf16) (harg2 : arg2.IsWhole)
    (arg3 : Memref sig .tc .vmem S1x256 .f32) (harg3 : arg3.IsWhole) (arg4 : Memref sig .tc .vmem S256x256 .bf16) (harg4 : arg4.IsWhole)
    (arg5 : Memref sig .tc .vmem S1x256 .f32) (harg5 : arg5.IsWhole) (arg6 : Memref sig .tc .vmem S3200x256 .f32) (harg6 : arg6.IsWhole)
    (x : Vec F S3200x769 .bf16) (w1 : Vec F S769x256 .bf16) (b1 : Vec F S1x256 .f32) (w2 : Vec F S256x256 .bf16) (b2 : Vec F S1x256 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (bodyOut x w1 b1 w2 b2)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (bodyOut_cover _)

/-! ## The proof data of the pipeline -/

/-- On core `c`: the arrays as the region finds them; after the body at point `t` each input buffer at its block and
    the output buffer at `bodyOut` of the five blocks; the invariant the plain one (nothing of the kernel's own);
    full shares, nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => bodyOut (blockAt m c 0 t) (blockAt m c 1 t) (blockAt m c 2 t) (blockAt m c 3 t) (blockAt m c 4 t)
  Φ _ := Pipeline.ΦA spec0 c
  q _ := fullShare
  owed _ := 0

theorem dats_A (c : Dev nD) (w : Fin cfg0.W) : (dats m 0 c).A w = atEntry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) :
    (dats m 0 c).after 5 t = bodyOut (blockAt m c 0 t) (blockAt m c 1 t) (blockAt m c 2 t) (blockAt m c 3 t) (blockAt m c 4 t) := by
  dsimp only [dats]

theorem staged0 (c : Dev nD) (t : Fin cfg0.N) (d) : (dats m 0 c).before 0 t d = blockAt m c 0 t :=
  staged0_of m (dats m 0 c) (dats_A m c 0) (after0 m c) t d
theorem staged1 (c : Dev nD) (t : Fin cfg0.N) (d) : (dats m 0 c).before 1 t d = blockAt m c 1 t :=
  staged1_of m (dats m 0 c) (dats_A m c 1) (after1 m c) t d
theorem staged2 (c : Dev nD) (t : Fin cfg0.N) (d) : (dats m 0 c).before 2 t d = blockAt m c 2 t :=
  staged2_of m (dats m 0 c) (dats_A m c 2) (after2 m c) t d
theorem staged3 (c : Dev nD) (t : Fin cfg0.N) (d) : (dats m 0 c).before 3 t d = blockAt m c 3 t :=
  staged3_of m (dats m 0 c) (dats_A m c 3) (after3 m c) t d
theorem staged4 (c : Dev nD) (t : Fin cfg0.N) (d) : (dats m 0 c).before 4 t d = blockAt m c 4 t :=
  staged4_of m (dats m 0 c) (dats_A m c 4) (after4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the invariant and the
    core's dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation on the body, at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of the program terminates, with the result array
    at what the pipeline's write-backs of the proof data make of it and every buffer outside the region as the region
    found it. -/
theorem run_region : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_upto m Variants.none) (hA := dats_A m) (hΦ := fun _ _ => rfl)

/-- The program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m (dats m) r h c) (run_region m ρ)

end Cert.Kernel.Region

end
-- ==== Proof.KernelIdealRegion.lean ====
/-
  The launch of the one kernel region and what it leaves behind, for any float instance.

  The program first runs its host operations (two row gathers from the node table by the sender and receiver
  indices, the four-way join of the gathered rows, the edge state and the edge length along the feature axis, the
  casts and reshapes of the weights and biases), then one kernel region over 100 grid points.  At point `t` the
  region stages rows `3200 t … 3200 t + 3199` of the joined activation, the whole of both weight matrices and both
  bias rows, and writes back rows `3200 t … 3200 t + 3199` of the result.  The body reads its five input buffers
  whole, also reads the output buffer (a value it never uses), and stores one value over the whole output buffer:
  the two-layer perceptron of the staged rows.  So after the body the output buffer holds that value whatever it
  held before, the input buffers are as they were, and nothing else is touched: this is all the pipeline's launch
  theorem asks, and its conclusion names the result array block by block and leaves every other array as the host
  operations left it.  The argument arrays are written by no host operation and staged by no window, so they end as
  launched.
-/
import proofs.«105628_j35691178230144_1_alg».proof.Proof.Gen.KernelIdeal.Launch
import proofs.«105628_j35691178230144_1_alg».proof.Proof.Gen.KernelIdeal.Skeleton
import proofs.«105628_j35691178230144_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- What core `c`'s buffers hold when the region is entered: the launch contents run through the host operations. -/
abbrev atEntry (c : Dev nD) (b : Ref sig .tc) : Buf (Elt F) ((c : Thread nD τ).loc b) :=
  StableHlo.after hostOps0 (fun b => m (c, b)) b

/-- No host operation allocates a buffer. -/
theorem hostOps0_noAlloc : (hostOps0 : List (HloOp τ sig (Elt F))).Forall fun op => op.fresh = ∅ := by
  simp only [List.Forall]; repeat' constructor

/-- The program is its host operations followed by the region. -/
theorem main_upto (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps0_noAlloc main_chain

/-- A buffer no host operation writes is found by the region as launched. -/
theorem atEntry_of_unwritten (c : Dev nD) (b : Ref sig .tc)
    (h : ∀ op ∈ (hostOps0 : List (HloOp τ sig (Elt F))), Proc.devRef .tc b ∉ op.writes) :
    atEntry m c b = m ((c : Thread nD τ).loc b) :=
  StableHlo.after_of_forall_not_mem (b := Proc.devRef .tc b) _ _ h

/-! ## The argument arrays are written by no host operation -/

section Unwritten
local macro "unwritten" : tactic => `(tactic|
  (refine List.forall_iff_forall_mem.mp ?_
   simp only [hostOps0, List.Forall, StableHlo.nullary_writes, StableHlo.unary_writes, StableHlo.binary_writes,
     StableHlo.ternary_writes, StableHlo.nary_writes, StableHlo.reshape_writes, Finset.mem_singleton]
   repeat' apply And.intro
   all_goals exact StableHlo.devRef_ne_of_ne (by decide)))

theorem atEntry_arg0 (c : Dev nD) : atEntry m c main_arg0 = m ((c : Thread nD τ).loc main_arg0) :=
  atEntry_of_unwritten m c main_arg0 (by unwritten)
theorem atEntry_arg1 (c : Dev nD) : atEntry m c main_arg1 = m ((c : Thread nD τ).loc main_arg1) :=
  atEntry_of_unwritten m c main_arg1 (by unwritten)
theorem atEntry_arg2 (c : Dev nD) : atEntry m c main_arg2 = m ((c : Thread nD τ).loc main_arg2) :=
  atEntry_of_unwritten m c main_arg2 (by unwritten)
theorem atEntry_arg3 (c : Dev nD) : atEntry m c main_arg3 = m ((c : Thread nD τ).loc main_arg3) :=
  atEntry_of_unwritten m c main_arg3 (by unwritten)
theorem atEntry_arg4 (c : Dev nD) : atEntry m c main_arg4 = m ((c : Thread nD τ).loc main_arg4) :=
  atEntry_of_unwritten m c main_arg4 (by unwritten)
theorem atEntry_arg5 (c : Dev nD) : atEntry m c main_arg5 = m ((c : Thread nD τ).loc main_arg5) :=
  atEntry_of_unwritten m c main_arg5 (by unwritten)
theorem atEntry_arg6 (c : Dev nD) : atEntry m c main_arg6 = m ((c : Thread nD τ).loc main_arg6) :=
  atEntry_of_unwritten m c main_arg6 (by unwritten)
theorem atEntry_arg7 (c : Dev nD) : atEntry m c main_arg7 = m ((c : Thread nD τ).loc main_arg7) :=
  atEntry_of_unwritten m c main_arg7 (by unwritten)
end Unwritten

/-! ## The staged blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! An input window's current staging buffer holds its block at every point, whether the point fetches it or not (a
    window that is not fetched has not moved), for any proof data over the entry contents whose body leaves the block
    in place.  One statement per input window: the activation rows, the first weight matrix, the first bias row, the
    second weight matrix, the second bias row. -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## The arguments after the run -/

/-- A run that leaves every buffer outside the region as the region found it leaves the argument arrays as launched:
    no window stages an argument array and no host operation writes one. -/
theorem args_kept (dats : (p : Fin 1) → (c : Dev nD) → Dat τ (Elt F) Unit ℕ (UR sig nD τ) ℕ (cfgs p) c)
    (r : PUnit × MemSt nD τ sig (Elt F)) (h : Pipeline.FramePost cfgs dats 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (atEntry_arg0 m c),
   ((h c).2 main_arg1 (Pipeline.mem_restRefs_of main_arg1 (by decide) (by decide))).trans (atEntry_arg1 m c),
   ((h c).2 main_arg2 (Pipeline.mem_restRefs_of main_arg2 (by decide) (by decide))).trans (atEntry_arg2 m c),
   ((h c).2 main_arg3 (Pipeline.mem_restRefs_of main_arg3 (by decide) (by decide))).trans (atEntry_arg3 m c),
   ((h c).2 main_arg4 (Pipeline.mem_restRefs_of main_arg4 (by decide) (by decide))).trans (atEntry_arg4 m c),
   ((h c).2 main_arg5 (Pipeline.mem_restRefs_of main_arg5 (by decide) (by decide))).trans (atEntry_arg5 m c),
   ((h c).2 main_arg6 (Pipeline.mem_restRefs_of main_arg6 (by decide) (by decide))).trans (atEntry_arg6 m c),
   ((h c).2 main_arg7 (Pipeline.mem_restRefs_of main_arg7 (by decide) (by decide))).trans (atEntry_arg7 m c)⟩

/-! ## The body -/

abbrev rX : Rect S3200x769 := Rect.unit (s := S3200x769) ![0, 0] S3200x769.size inb_S3200x769_S3200x769_0_0
abbrev rW1 : Rect S769x256 := Rect.unit (s := S769x256) ![0, 0] S769x256.size inb_S769x256_S769x256_0_0
abbrev rB : Rect S1x256 := Rect.unit (s := S1x256) ![0, 0] S1x256.size inb_S1x256_S1x256_0_0
abbrev rW2 : Rect S256x256 := Rect.unit (s := S256x256) ![0, 0] S256x256.size inb_S256x256_S256x256_0_0
abbrev rOut : Rect S3200x256 := Rect.unit (s := S3200x256) ![0, 0] S3200x256.size inb_S3200x256_S3200x256_0_0

/-- What the output buffer holds after the body, from the five input buffers' contents: the one store, over the
    whole buffer, of the perceptron of the loaded values. -/
def bodyOut (x : Vec F S3200x769 .bf16) (w1 : Vec F S769x256 .bf16) (b1 : Vec F S1x256 .f32) (w2 : Vec F S256x256 .bf16) (b2 : Vec F S1x256 .f32) : Vec F S3200x256 .f32 :=
  View.canon [⟨rOut, k0_pay1 (View.ld x rX) (View.ld w1 rW1) (View.ld b1 rB) (View.ld w2 rW2) (View.ld b2 rB)⟩]

/-- The one store covers the buffer. -/
theorem bodyOut_cover (p0 : Vec F S3200x256 .f32) (y : S3200x256.Idx) :
    ∃ pc ∈ ([⟨rOut, p0⟩] : List (View.Piece (Elt F) S3200x256 .f32)), y ∈ pc.1.set :=
  View.cover_of_tiled [⟨rOut, p0⟩] S3200x256.size (by rfl) y

set_option maxHeartbeats 1000000 in
/-- The body on whole staging buffers, the inputs' at known contents and the output's at anything, runs to a state
    with the inputs' as they were and the output's at `bodyOut` of them. -/
theorem body_triple (c : Dev nD) (E : Set ℕ) (i : grid0.Coords)
    (arg1 : Memref sig .tc .vmem S3200x769 .bf16) (harg1 : arg1.IsWhole) (arg2 : Memref sig .tc .vmem S769x256 .bf16) (harg2 : arg2.IsWhole)
    (arg3 : Memref sig .tc .vmem S1x256 .f32) (harg3 : arg3.IsWhole) (arg4 : Memref sig .tc .vmem S256x256 .bf16) (harg4 : arg4.IsWhole)
    (arg5 : Memref sig .tc .vmem S1x256 .f32) (harg5 : arg5.IsWhole) (arg6 : Memref sig .tc .vmem S3200x256 .f32) (harg6 : arg6.IsWhole)
    (x : Vec F S3200x769 .bf16) (w1 : Vec F S769x256 .bf16) (b1 : Vec F S1x256 .f32) (w2 : Vec F S256x256 .bf16) (b2 : Vec F S1x256 .f32)
    (K : PUnit → sProp 𝕄) :
    iprop(owns (c : Thread nD τ) arg1 fullShare x ∗ owns (c : Thread nD τ) arg2 fullShare w1 ∗ owns (c : Thread nD τ) arg3 fullShare b1
        ∗ owns (c : Thread nD τ) arg4 fullShare w2 ∗ owns (c : Thread nD τ) arg5 fullShare b2 ∗ (∃ d, owns (c : Thread nD τ) arg6 fullShare d)
        ∗ (iprop(owns (c : Thread nD τ) arg1 fullShare x ∗ owns (c : Thread nD τ) arg2 fullShare w1 ∗ owns (c : Thread nD τ) arg3 fullShare b1
            ∗ owns (c : Thread nD τ) arg4 fullShare w2 ∗ owns (c : Thread nD τ) arg5 fullShare b2
            ∗ owns (c : Thread nD τ) arg6 fullShare (bodyOut x w1 b1 w2 b2)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (bodyOut_cover _)

/-! ## The proof data of the pipeline -/

/-- On core `c`: the arrays as the region finds them; after the body at point `t` each input buffer at its block and
    the output buffer at `bodyOut` of the five blocks; the invariant the plain one (nothing of the kernel's own);
    full shares, nothing owed. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => bodyOut (blockAt m c 0 t) (blockAt m c 1 t) (blockAt m c 2 t) (blockAt m c 3 t) (blockAt m c 4 t)
  Φ _ := Pipeline.ΦA spec0 c
  q _ := fullShare
  owed _ := 0

theorem dats_A (c : Dev nD) (w : Fin cfg0.W) : (dats m 0 c).A w = atEntry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = blockAt m c 4 t := by dsimp only [dats]
theorem after5 (c : Dev nD) (t : Fin cfg0.N) :
    (dats m 0 c).after 5 t = bodyOut (blockAt m c 0 t) (blockAt m c 1 t) (blockAt m c 2 t) (blockAt m c 3 t) (blockAt m c 4 t) := by
  dsimp only [dats]

theorem staged0 (c : Dev nD) (t : Fin cfg0.N) (d) : (dats m 0 c).before 0 t d = blockAt m c 0 t :=
  staged0_of m (dats m 0 c) (dats_A m c 0) (after0 m c) t d
theorem staged1 (c : Dev nD) (t : Fin cfg0.N) (d) : (dats m 0 c).before 1 t d = blockAt m c 1 t :=
  staged1_of m (dats m 0 c) (dats_A m c 1) (after1 m c) t d
theorem staged2 (c : Dev nD) (t : Fin cfg0.N) (d) : (dats m 0 c).before 2 t d = blockAt m c 2 t :=
  staged2_of m (dats m 0 c) (dats_A m c 2) (after2 m c) t d
theorem staged3 (c : Dev nD) (t : Fin cfg0.N) (d) : (dats m 0 c).before 3 t d = blockAt m c 3 t :=
  staged3_of m (dats m 0 c) (dats_A m c 3) (after3 m c) t d
theorem staged4 (c : Dev nD) (t : Fin cfg0.N) (d) : (dats m 0 c).before 4 t d = blockAt m c 4 t :=
  staged4_of m (dats m 0 c) (dats_A m c 4) (after4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the input buffers hold their blocks, so the body's triple applies; the invariant and the
    core's dues pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_triple c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's obligation on the body, at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of the program terminates, with the result array
    at what the pipeline's write-backs of the proof data make of it and every buffer outside the region as the region
    found it. -/
theorem run_region : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_upto m Variants.none) (hA := dats_A m) (hΦ := fun _ _ => rfl)

/-- The program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => args_kept m (dats m) r h c) (run_region m ρ)

end Cert.KernelIdeal.Region

end
-- ==== Proof.LibRowOps.lean ====
/-
  Two-axis operations read at a row and a column.

  General facts about arrays with two axes, written over indices `ix2 r c` with literal-typed coordinates, at the
  extended reals where arithmetic is involved:
  * a plain matrix product `[M, K] × [K, N]` into a zero accumulator is, at `(r, c)`, the sum over `k` of the left
    operand at `(r, k)` times the right at `(k, c)`;
  * a sum over the second axis of an `[R, n]` array is, at `r`, the sum over `k` of the array at `(r, k)`;
  * a one-axis array `[a]` cast to a column `[a, 1]` reads its entry `r`; a column `[a, 1]` broadcast to `[a, b]`
    reads the column's entry in the same row;
  * two arrays joined along the second axis read the first where the column falls inside it and the second, the first's
    width less, elsewhere.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx
open scoped BigOperators

/-! ## A plain matrix product -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (M K N : ℕ) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (M K N : ℕ) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product, re-indexed by the one contracted coordinate. -/
theorem plain_sum (M K N : ℕ) (a : (⟨2, ![M, K]⟩ : Shape).Idx → EReal) (b : (⟨2, ![K, N]⟩ : Shape).Idx → EReal)
    (r : Fin M) (c : Fin N) :
    ∑ k : (DotDims.plain M K N).contr.Idx,
        a ((DotDims.plain M K N).lhsIdx (ix2 r c) k) * b ((DotDims.plain M K N).rhsIdx (ix2 r c) k)
      = ∑ k : Fin K, a (ix2 r k) * b (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => exact plain_lhs0 M K N _ _
      | ⟨1, _⟩ => exact (plain_lhs1 M K N _ _).trans hk)
  have er : (DotDims.plain M K N).rhsIdx (ix2 r c) ((contrEquiv1 (DotDims.plain M K N) K rfl rfl).symm k) = ix2 k c :=
    funext fun ax => Fin.ext (by
      match ax with
      | ⟨0, _⟩ => exact (plain_rhs0 M K N _ _).trans hk
      | ⟨1, _⟩ => exact plain_rhs1 M K N _ _)
  rw [el, er]

/-- A matrix product with plain dimension numbers into the zero accumulator, at `(r, c)`: `Σₖ a (r, k) · b (k, c)`.
    The dimension record may be any whose data are the plain ones (`hD`, by `rfl` for a printed record). -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (r : Fin M) (c : Fin N) :
    matmul D prec a b (constant ⟨2, ![M, N]⟩ .f32 0x00000000#32) (ix2 r c) = ∑ k : Fin K, a (ix2 r k) * b (ix2 k c) := by
  subst hD
  exact (Ideal.matmul_constant_zero_apply (DotDims.plain M K N) prec a b (ix2 r c)).trans (plain_sum M K N a b r c)

/-! ## A sum along the second axis -/

/-- A float sum over axis 1 of an `[R, n]` array from the zero word, at `r`: `Σₖ x (r, k)`. -/
theorem multiReduction_add_rows {R n : ℕ} {φ : FTy} (x : FVec Ideal ⟨2, ![R, n]⟩ φ) (acc : BitVec φ.bits)
    (h : (⟨2, ![R, n]⟩ : Shape).Reduces [1] ⟨1, ![R]⟩) (hφ : FKind.Formats φ) (hacc : acc = FKind.add.neutral φ hφ) (r : Fin R) :
    multiReduction .add [1] ⟨1, ![R]⟩ x acc h hφ hacc (ix1 r) = ∑ k : Fin n, x (ix2 r k) := by
  refine (Ideal.multiReduction_add_single x acc h hφ hacc (ix1 r)).trans ?_
  refine Finset.sum_congr rfl fun k _ => congrArg x (funext fun ax => Fin.ext ?_)
  match ax with
  | ⟨0, _⟩ => rfl
  | ⟨1, _⟩ => rfl

/-! ## Columns -/

variable {α : Type}

/-- An `[a]` array cast to a column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry in row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Two arrays side by side -/

/-- Two arrays `[R, a]` and `[R, b]` joined along axis 1 into `[R, c]`, at `(r, k)`: the first at `(r, k)` when `k < a`,
    else the second at `(r, k - a)`. -/
theorem concatenate_cols_apply {R a b c : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, c]⟩ 1) (hc : c = a + b) (r : Fin R) (k : Fin c) :
    concatenate ⟨2, ![R, c]⟩ 1 [⟨⟨2, ![R, a]⟩, x₁⟩, ⟨⟨2, ![R, b]⟩, x₂⟩] h (ix2 r k)
      = if hk : k.val < a then x₁ (ix2 r ⟨k.val, hk⟩) else x₂ (ix2 r ⟨k.val - a, by omega⟩) := by
  split
  · next hk =>
    refine concatenate_pair_apply_left 1 x₁ x₂ h (ix2 r k) rfl (ix2 r ⟨k.val, hk⟩) fun ax => ?_
    match ax with
    | ⟨0, _⟩ => rfl
    | ⟨1, _⟩ => rfl
  · next hk =>
    refine concatenate_pair_apply_right 1 x₁ x₂ h (ix2 r k) rfl rfl (ix2 r ⟨k.val - a, by omega⟩) (fun ax hne => ?_) ?_
    · match ax with
      | ⟨0, _⟩ => rfl
      | ⟨1, _⟩ => exact absurd rfl hne
    · show k.val - a + a = k.val
      omega

end Cert.RowOps

end
-- ==== Proof.Spec.lean ====
/-
  The edge update as a function of one edge's input row.

  For an edge with input row `x` (769 numbers: the sender's node features, the receiver's, the edge's state and its
  length), first-layer weights `W₁` (769 × 256) and bias `b₁`, second-layer weights `W₂` (256 × 256) and bias `b₂`:

    hidden k = Σᵢ x i · W₁ i k + b₁ k          (256 pre-activations)
    gated h  = h · σ(h),  σ(h) = 1 / (1 + e^(-h))
    out j    = Σₖ gated (hidden k) · W₂ k j + b₂ j.

  All of it is read on the extended reals.  The kernel applies `σ` as one operation; the reference spells it out as a
  negation, an exponential, a sum with one and a quotient of one.  On the extended reals these are one function, at
  the infinities too, because `σ` is defined there as exactly that expression; the only thing to check is that the
  float word of 1.0 denotes the number one.  No rearrangement of a sum or a product is involved: both programs add the
  products in the same grouping.
-/
import Idealize.ShloMosaic.PureOps.Ideal
import Idealize.ShloMosaic.PureOps.IdealRules

noncomputable section

namespace Cert.EdgeMlp

open Idealize.ShloMosaic
open scoped BigOperators

/-- The first layer's pre-activation `k` of an input row. -/
def hidden (x : Fin 769 → EReal) (W₁ : Fin 769 → Fin 256 → EReal) (b₁ : Fin 256 → EReal) (k : Fin 256) : EReal :=
  (∑ i : Fin 769, x i * W₁ i k) + b₁ k

/-- A pre-activation times its logistic. -/
def gated (h : EReal) : EReal := h * Ideal.logistic h

/-- Entry `j` of the updated edge state. -/
def out (x : Fin 769 → EReal) (W₁ : Fin 769 → Fin 256 → EReal) (b₁ : Fin 256 → EReal) (W₂ : Fin 256 → Fin 256 → EReal)
    (b₂ : Fin 256 → EReal) (j : Fin 256) : EReal :=
  (∑ k : Fin 256, gated (hidden x W₁ b₁ k) * W₂ k j) + b₂ j

/-- The single-precision word of 1.0 denotes one. -/
theorem word_one : Ideal.ofBits .f32 0x3F800000#32 = 1 := IdealRules.sign_bit.ideal_onePat .f32

/-- The logistic spelt with negation, exponential, sum and quotient over the word of 1.0 is the logistic. -/
theorem gated_spelt (h : EReal) :
    h * Ideal.div (Ideal.ofBits .f32 0x3F800000#32) (Ideal.ofBits .f32 0x3F800000#32 + Ideal.exp (-h)) = gated h := by
  rw [word_one]; rfl

end Cert.EdgeMlp

end
-- ==== Proof.KernelIdealRow.lean ====
/-
  The kernel body's stored value, one entry at a time.

  The body holds 3200 rows of the activation, the two weight matrices and the two bias rows, and stores
  `(gated (X · W₁ + b₁)) · W₂ + b₂` over its 3200 × 256 output block: each product is a matrix-unit product into a
  zero accumulator, each bias a `[1, 256]` row broadcast down the 3200 rows, the casts to the sixteen-bit format are
  the identity on extended reals.  Read at `(p, q)` this is `EdgeMlp.out` of row `p` of the staged activation.
-/
import proofs.«105628_j35691178230144_1_alg».proof.Proof.Gen.KernelIdeal.Skeleton
import proofs.«105628_j35691178230144_1_alg».proof.Proof.LibRowOps
import proofs.«105628_j35691178230144_1_alg».proof.Proof.Spec

noncomputable section

namespace Cert.KernelIdeal.Row

open Cert.KernelIdeal Cert.KernelIdeal.Gen
open Idealize.ShloMosaic Idealize.ShloMosaic.ValueIdx
open scoped BigOperators

/-- A bias row `[1, N]` broadcast down `M` rows reads, at `(r, c)`, the row's entry `c`. -/
theorem bias_row_apply {α : Type} {M N : ℕ} (b : (⟨2, ![1, N]⟩ : Shape).Idx → α) (h : (⟨2, ![1, N]⟩ : Shape).Broadcasts ⟨2, ![M, N]⟩)
    (r : Fin M) (c : Fin N) : broadcastTo ⟨2, ![M, N]⟩ b h (ix2 r c) = b (ix2 (0 : Fin 1) c) := by
  refine broadcastTo_apply b h (ix2 r c) (ix2 (0 : Fin 1) c) fun ax => ?_
  match ax with
  | ⟨0, _⟩ => rfl
  | ⟨1, _⟩ =>
    show c.val = if N = 1 then 0 else c.val
    split
    · have := c.isLt; omega
    · rfl

/-- The logistic of an array, at an index, is the logistic of the entry. -/
theorem logistic_at {s : Shape} {φ : FTy} (a : FVec Ideal s φ) (i : s.Idx) : logistic a i = Ideal.logistic (a i) := rfl

/-- One dense layer — a plain matrix product into the zero accumulator plus a broadcast bias row — at `(r, c)`. -/
theorem dense_apply {M K N : ℕ} {φ₁ φ₂ : FTy} (D : DotDims ⟨2, ![M, K]⟩ ⟨2, ![K, N]⟩ ⟨2, ![M, N]⟩) (hD : D = DotDims.plain M K N)
    (a : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) (r : Fin M) (c : Fin N) :
    addf (matmul D none a w (constant ⟨2, ![M, N]⟩ .f32 0x00000000#32)) (broadcastTo ⟨2, ![M, N]⟩ b hb) (ix2 r c)
      = (∑ k : Fin K, a (ix2 r k) * w (ix2 k c)) + b (ix2 (0 : Fin 1) c) := by
  rw [addf_apply, Cert.RowOps.matmul_plain_apply D hD, bias_row_apply]

/-- The stored value at `(p, q)`. -/
theorem stored_at (x : Vec Ideal S3200x769 .bf16) (w1 : Vec Ideal S769x256 .bf16) (b1 : Vec Ideal S1x256 .f32)
    (w2 : Vec Ideal S256x256 .bf16) (b2 : Vec Ideal S1x256 .f32) (p : Fin 3200) (q : Fin 256) :
    k0_pay1 (F := Ideal) x w1 b1 w2 b2 (ix2 p q)
      = EdgeMlp.out (fun i => x (ix2 p i)) (fun i k => w1 (ix2 i k)) (fun k => b1 (ix2 (0 : Fin 1) k))
          (fun k j => w2 (ix2 k j)) (fun j => b2 (ix2 (0 : Fin 1) j)) q := by
  unfold k0_pay1
  rw [dense_apply dot_S3200x256_S256x256_S3200x256_1_0_0_1_n_n rfl]
  unfold EdgeMlp.out
  refine congrArg₂ (· + ·) (Finset.sum_congr rfl fun k _ => ?_) ?_
  · rw [truncf_apply, mulf_apply, logistic_at, dense_apply dot_S3200x769_S769x256_S3200x256_1_0_0_1_n_n rfl]
    simp only [shapeCast_self]
    rfl
  · simp only [shapeCast_self]

end Cert.KernelIdeal.Row

end
-- ==== Proof.KernelIdealValue.lean ====
/-
  The idealized kernel's result array as one function of what the region stages.

  Grid point `t` writes back rows `3200 t … 3200 t + 3199` of the result, and what it writes at row `p` of its block
  is the edge update of row `3200 t + p` of the activation array: the activation window's block `t` is exactly those
  rows, and the four parameter windows have one block, the whole array, at every point.  The 100 blocks tile the
  320000 rows (row `r` lies in block `r / 3200`), so after the run the result array is, at every `(e, j)`, the edge
  update of activation row `e` at `j`.
-/
import proofs.«105628_j35691178230144_1_alg».proof.Proof.KernelIdealRegion
import proofs.«105628_j35691178230144_1_alg».proof.Proof.KernelIdealRow
import Idealize.ShloMosaic.Lib.Pipeline.Value

set_option maxRecDepth 16384

noncomputable section

namespace Cert.KernelIdeal.Result

open Cert.KernelIdeal Cert.KernelIdeal.Gen Cert.KernelIdeal.Region
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The edge update of every edge, from the activation array, the two weight matrices and the two bias rows. -/
def update (X : S320000x769.Idx → EReal) (W₁ : S769x256.Idx → EReal) (B₁ : S1x256.Idx → EReal) (W₂ : S256x256.Idx → EReal)
    (B₂ : S1x256.Idx → EReal) : S320000x256.Idx → EReal := fun i =>
  EdgeMlp.out (fun k => X (ix2 (⟨(i 0).val, (i 0).isLt⟩ : Fin 320000) k)) (fun a k => W₁ (ix2 a k)) (fun k => B₁ (ix2 (0 : Fin 1) k))
    (fun k j => W₂ (ix2 k j)) (fun j => B₂ (ix2 (0 : Fin 1) j)) (⟨(i 1).val, (i 1).isLt⟩ : Fin 256)

/-- The update of the arrays core `c`'s region stages. -/
abbrev staged (c : Dev nD) : S320000x256.Idx → EReal :=
  update (atEntry m c main_v20) (atEntry m c main_v21) (atEntry m c main_v23) (atEntry m c main_v22) (atEntry m c main_v24)

theorem zero_offsets : (![0, 0] : Fin 2 → Nat) = fun _ => 0 := funext fun a => by fin_cases a <;> rfl

theorem points_lt (t : Fin cfg0.N) : t.val < 100 := lt_of_lt_of_eq t.isLt N_0

/-- The printed index maps over the grid: the activation and the result move one block of rows per point, the
    parameters stay at their one block. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## The staged blocks, entry by entry -/

/-- Row `p` of the activation block at point `t` is row `3200 t + p` of the activation array. -/
theorem act_block (c : Dev nD) (t : Fin cfg0.N) (p : Fin 3200) (i : Fin 769) :
    blockAt m c 0 t (ix2 p i)
      = atEntry m c main_v20 (ix2 (⟨3200 * t.val + p.val, by have := points_lt t; omega⟩ : Fin 320000) i) := by
  show atEntry m c main_v20 (((cfg0.win 0).blk t).view.emb (ix2 p i)) = _
  refine congrArg (atEntry m c main_v20) (funext fun a => Fin.ext ?_)
  obtain ⟨e0, e1, -⟩ := index_maps t
  match a with
  | ⟨0, _⟩ => show win0_0.index t (0 : Fin 2) * 3200 + 1 * p.val = 3200 * t.val + p.val; omega
  | ⟨1, _⟩ => show win0_0.index t (1 : Fin 2) * 769 + 1 * i.val = i.val; omega

/-- The first weight matrix's block at any point is the matrix. -/
theorem w1_block (c : Dev nD) (t : Fin cfg0.N) (i : Fin 769) (k : Fin 256) :
    blockAt m c 1 t (ix2 i k) = atEntry m c main_v21 (ix2 i k) := by
  show atEntry m c main_v21 (((cfg0.win 1).blk t).view.emb (ix2 i k)) = _
  refine congrArg (atEntry m c main_v21) (funext fun a => Fin.ext ?_)
  obtain ⟨-, -, e0, e1, -⟩ := index_maps t
  match a with
  | ⟨0, _⟩ => show win0_1.index t (0 : Fin 2) * 769 + 1 * i.val = i.val; omega
  | ⟨1, _⟩ => show win0_1.index t (1 : Fin 2) * 256 + 1 * k.val = k.val; omega

/-- The first bias row's block at any point is the row. -/
theorem b1_block (c : Dev nD) (t : Fin cfg0.N) (k : Fin 256) :
    blockAt m c 2 t (ix2 (0 : Fin 1) k) = atEntry m c main_v23 (ix2 (0 : Fin 1) k) := by
  show atEntry m c main_v23 (((cfg0.win 2).blk t).view.emb (ix2 (0 : Fin 1) k)) = _
  refine congrArg (atEntry m c main_v23) (funext fun a => Fin.ext ?_)
  obtain ⟨-, -, -, -, e0, e1, -⟩ := index_maps t
  match a with
  | ⟨0, _⟩ => show win0_2.index t (0 : Fin 2) * 1 + 1 * 0 = 0; omega
  | ⟨1, _⟩ => show win0_2.index t (1 : Fin 2) * 256 + 1 * k.val = k.val; omega

/-- The second weight matrix's block at any point is the matrix. -/
theorem w2_block (c : Dev nD) (t : Fin cfg0.N) (k : Fin 256) (j : Fin 256) :
    blockAt m c 3 t (ix2 k j) = atEntry m c main_v22 (ix2 k j) := by
  show atEntry m c main_v22 (((cfg0.win 3).blk t).view.emb (ix2 k j)) = _
  refine congrArg (atEntry m c main_v22) (funext fun a => Fin.ext ?_)
  obtain ⟨-, -, -, -, -, -, e0, e1, -⟩ := index_maps t
  match a with
  | ⟨0, _⟩ => show win0_3.index t (0 : Fin 2) * 256 + 1 * k.val = k.val; omega
  | ⟨1, _⟩ => show win0_3.index t (1 : Fin 2) * 256 + 1 * j.val = j.val; omega

/-- The second bias row's block at any point is the row. -/
theorem b2_block (c : Dev nD) (t : Fin cfg0.N) (j : Fin 256) :
    blockAt m c 4 t (ix2 (0 : Fin 1) j) = atEntry m c main_v24 (ix2 (0 : Fin 1) j) := by
  show atEntry m c main_v24 (((cfg0.win 4).blk t).view.emb (ix2 (0 : Fin 1) j)) = _
  refine congrArg (atEntry m c main_v24) (funext fun a => Fin.ext ?_)
  obtain ⟨-, -, -, -, -, -, -, -, e0, e1, -⟩ := index_maps t
  match a with
  | ⟨0, _⟩ => show win0_4.index t (0 : Fin 2) * 1 + 1 * 0 = 0; omega
  | ⟨1, _⟩ => show win0_4.index t (1 : Fin 2) * 256 + 1 * j.val = j.val; omega

/-! ## What each point writes back -/

/-- Point `t` writes back block `t` of the staged arrays' update. -/
theorem written_back (c : Dev nD) (t : Fin cfg0.N) :
    (dats m 0 c).flushed 5 t = ((cfg0.win 5).blk t).view.read (Elt Ideal) (staged m c) := by
  show (cfg0.win 5).cut (grid0.coords t) ((dats m 0 c).after 5 t) = _
  rw [after5]
  unfold bodyOut
  rw [View.canon_unit_zero zero_offsets]
  simp only [View.ld_unit_zero (S := S3200x769) zero_offsets, View.ld_unit_zero (S := S769x256) zero_offsets,
    View.ld_unit_zero (S := S1x256) zero_offsets, View.ld_unit_zero (S := S256x256) zero_offsets]
  funext j
  obtain ⟨p, q, rfl⟩ : ∃ (p : Fin 3200) (q : Fin 256), j = ix2 p q := ⟨j 0, j 1, eq_ix2 j⟩
  refine (Row.stored_at (blockAt m c 0 t) (blockAt m c 1 t) (blockAt m c 2 t) (blockAt m c 3 t) (blockAt m c 4 t) p q).trans ?_
  have hemb : ((cfg0.win 5).blk t).view.emb (ix2 p q)
      = (ix2 (⟨3200 * t.val + p.val, by have := points_lt t; omega⟩ : Fin 320000) q : S320000x256.Idx) := by
    obtain ⟨-, -, -, -, -, -, -, -, -, -, e0, e1⟩ := index_maps t
    funext a; apply Fin.ext
    match a with
    | ⟨0, _⟩ => show win0_5.index t (0 : Fin 2) * 3200 + 1 * p.val = 3200 * t.val + p.val; omega
    | ⟨1, _⟩ => show win0_5.index t (1 : Fin 2) * 256 + 1 * q.val = q.val; omega
  show _ = staged m c (((cfg0.win 5).blk t).view.emb (ix2 p q))
  rw [hemb]
  show _ = EdgeMlp.out (fun k => atEntry m c main_v20 (ix2 (⟨3200 * t.val + p.val, _⟩ : Fin 320000) k)) (fun a k => atEntry m c main_v21 (ix2 a k))
    (fun k => atEntry m c main_v23 (ix2 (0 : Fin 1) k)) (fun k j => atEntry m c main_v22 (ix2 k j)) (fun j => atEntry m c main_v24 (ix2 (0 : Fin 1) j)) q
  rw [show (fun i => blockAt m c 0 t (ix2 p i)) = _ from funext fun i => act_block m c t p i,
    show (fun i k => blockAt m c 1 t (ix2 i k)) = _ from funext fun i => funext fun k => w1_block m c t i k,
    show (fun k => blockAt m c 2 t (ix2 (0 : Fin 1) k)) = _ from funext fun k => b1_block m c t k,
    show (fun k j => blockAt m c 3 t (ix2 k j)) = _ from funext fun k => funext fun j => w2_block m c t k j,
    show (fun j => blockAt m c 4 t (ix2 (0 : Fin 1) j)) = _ from funext fun j => b2_block m c t j]

/-! ## The blocks tile the array -/

/-- An index is in point `t`'s result block iff each coordinate is in the block's range on its axis. -/
theorem in_block (t : Fin cfg0.N) (i : S320000x256.Idx) :
    i ∈ ((cfg0.win 5).blk t).view.set ↔ ∀ a : Fin 2, win0_5.index t a * S3200x256.size a ≤ (i a).val ∧ (i a).val < win0_5.index t a * S3200x256.size a + S3200x256.size a := by
  show i ∈ ((View.whole main_v25).slice (win0_5.rect t)).set ↔ _
  rw [View.set_slice_whole, Rect.mem_set_unit]
  exact Iff.rfl

/-- Every entry of the result array lies in the block of the point its row falls in. -/
theorem tiled (i : S320000x256.Idx) : ∃ t : Fin cfg0.N, (cfg0.win 5).flush t = true ∧ i ∈ ((cfg0.win 5).blk t).view.set := by
  have hi0 : (i 0).val < 320000 := (i 0).isLt
  have hi1 : (i 1).val < 256 := (i 1).isLt
  have hlt : (i 0).val / 3200 < cfg0.N := by rw [show cfg0.N = 100 from N_0]; omega
  refine ⟨⟨(i 0).val / 3200, hlt⟩, flush0_5 _, ?_⟩
  rw [in_block]
  obtain ⟨-, -, -, -, -, -, -, -, -, -, e0, e1⟩ := index_maps ⟨(i 0).val / 3200, hlt⟩
  have e0' : win0_5.index ⟨(i 0).val / 3200, hlt⟩ (0 : Fin 2) = (i 0).val / 3200 := e0
  intro a
  match a with
  | ⟨0, _⟩ =>
    show win0_5.index ⟨(i 0).val / 3200, hlt⟩ (0 : Fin 2) * 3200 ≤ (i 0).val ∧ (i 0).val < win0_5.index ⟨(i 0).val / 3200, hlt⟩ (0 : Fin 2) * 3200 + 3200
    omega
  | ⟨1, _⟩ =>
    show win0_5.index ⟨(i 0).val / 3200, hlt⟩ (1 : Fin 2) * 256 ≤ (i 1).val ∧ (i 1).val < win0_5.index ⟨(i 0).val / 3200, hlt⟩ (1 : Fin 2) * 256 + 256
    omega

/-- The result array after the run. -/
theorem result_array (c : Dev nD) : (dats m 0 c).arrAt 5 cfg0.N = staged m c :=
  (dats m 0 c).arrAt_eq_of_cover 5 (staged m c) (fun t _ => written_back m c t) tiled

/-- The run, with the result array named: the update of the arrays the region stages; the arguments as launched. -/
theorem run : θ_run defs (onTc (τ := τ) (main (F := Ideal))) ⟨m, fun _ => 0, ρ⟩ fun r => ∀ c : Dev nD,
      r.2.mem ((c.tc : Thread nD τ).loc main_v25) = staged m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 5).trans (result_array m c), args_kept m (dats m) r h c⟩) (run_region m ρ)

end Cert.KernelIdeal.Result

end
-- ==== Proof.RefValue.lean ====
/-
  The reference's result, one entry at a time.

  The reference joins the gathered rows into one activation array `X` (320000 × 769), multiplies by `W₁`, adds `b₁`
  along the rows, applies `h ↦ h · 1 / (1 + e^(-h))`, multiplies by `W₂` and adds `b₂`.  Read at entry `(e, j)`
  this is `EdgeMlp.out` of row `e` of `X`: each matrix product is the sum over the contracted coordinate, each
  bias is broadcast along the rows, and the spelt-out logistic is the logistic.  The array `X` itself is kept as the
  one term both programs build with the same host operations; nothing here looks inside it.
-/
import proofs.«105628_j35691178230144_1_alg».proof.Proof.Gen.ReferenceIdeal.Run
import proofs.«105628_j35691178230144_1_alg».proof.Proof.Gen.ReferenceIdeal.Read
import proofs.«105628_j35691178230144_1_alg».proof.Proof.Spec

noncomputable section

namespace Cert.ReferenceIdeal.Bridge

open Cert.ReferenceIdeal Cert.ReferenceIdeal.Gen Cert.ReferenceIdeal.Read
open Idealize.ShloMosaic Idealize.ShloMosaic.ValueIdx
open scoped BigOperators

variable (a0 : (⟨S10000x256, .f32⟩ : BufTy).Contents (Elt Ideal)) (a1 : (⟨S2x320000, .i32⟩ : BufTy).Contents (Elt Ideal))
  (a2 : (⟨S320000, .f32⟩ : BufTy).Contents (Elt Ideal)) (a3 : (⟨S320000x256, .f32⟩ : BufTy).Contents (Elt Ideal))
  (a4 : (⟨S769x256, .f32⟩ : BufTy).Contents (Elt Ideal)) (a5 : (⟨S256, .f32⟩ : BufTy).Contents (Elt Ideal))
  (a6 : (⟨S256x256, .f32⟩ : BufTy).Contents (Elt Ideal)) (a7 : (⟨S256, .f32⟩ : BufTy).Contents (Elt Ideal))

/-- Row `e` of the joined activation array. -/
abbrev xrow (e : Fin 320000) : Fin 769 → EReal := fun i => val_main_v19 (F := Ideal) a0 a1 a2 a3 (ix2 e i)

/-- The first layer's sum plus bias at `(e, k)`. -/
theorem hidden_at (e : Fin 320000) (k : Fin 256) :
    val_main_v23 (F := Ideal) a0 a1 a2 a3 a4 a5 (ix2 e k)
      = EdgeMlp.hidden (xrow a0 a1 a2 a3 e) (fun i k => a4 (ix2 i k)) (fun k => a5 (ix1 k)) k := by
  rw [val_main_v23_apply, val_main_v20_apply, val_main_v22_apply, val_main_v21_apply]
  unfold EdgeMlp.hidden
  rw [Ideal.addf_def]
  refine congrArg₂ (· + ·) (Finset.sum_congr rfl fun i _ => ?_) (congrArg a5 ?_)
  · have hl : lidx_main_v20 (ix2 e k) i = ix2 e i := funext fun a => Fin.ext (by
      match a with
      | ⟨0, _⟩ => rfl
      | ⟨1, _⟩ => rfl)
    have hr : ridx_main_v20 (ix2 e k) i = ix2 i k := funext fun a => Fin.ext (by
      match a with
      | ⟨0, _⟩ => rfl
      | ⟨1, _⟩ => rfl)
    rw [hl, hr]
  · exact funext fun a => Fin.ext (by
      match a with
      | ⟨0, _⟩ => rfl)

/-- The gated activation at `(e, k)`. -/
theorem gated_at (e : Fin 320000) (k : Fin 256) :
    val_main_v24 (F := Ideal) a0 a1 a2 a3 a4 a5 (ix2 e k)
      = EdgeMlp.gated (EdgeMlp.hidden (xrow a0 a1 a2 a3 e) (fun i k => a4 (ix2 i k)) (fun k => a5 (ix1 k)) k) := by
  rw [val_main_v24_apply, val_main_call0_v5_apply, val_main_call0_v4_apply, val_main_call0_cst_0_apply, val_main_call0_v3_apply,
    val_main_call0_v2_apply, val_main_call0_cst_apply, val_main_call0_v1_apply, val_main_call0_v0_apply, hidden_at]
  exact EdgeMlp.gated_spelt _

/-- The reference's result at `(e, j)`. -/
theorem result_at (e : Fin 320000) (j : Fin 256) :
    val_main_v28 (F := Ideal) a0 a1 a2 a3 a4 a5 a6 a7 (ix2 e j)
      = EdgeMlp.out (xrow a0 a1 a2 a3 e) (fun i k => a4 (ix2 i k)) (fun k => a5 (ix1 k)) (fun k j => a6 (ix2 k j)) (fun j => a7 (ix1 j)) j := by
  rw [val_main_v28_apply, val_main_v25_apply, val_main_v27_apply, val_main_v26_apply]
  unfold EdgeMlp.out
  rw [Ideal.addf_def]
  refine congrArg₂ (· + ·) (Finset.sum_congr rfl fun k _ => ?_) (congrArg a7 ?_)
  · have hl : lidx_main_v25 (ix2 e j) k = ix2 e k := funext fun a => Fin.ext (by
      match a with
      | ⟨0, _⟩ => rfl
      | ⟨1, _⟩ => rfl)
    have hr : ridx_main_v25 (ix2 e j) k = ix2 k j := funext fun a => Fin.ext (by
      match a with
      | ⟨0, _⟩ => rfl
      | ⟨1, _⟩ => rfl)
    rw [hl, hr, gated_at]
  · exact funext fun a => Fin.ext (by
      match a with
      | ⟨0, _⟩ => rfl)

end Cert.ReferenceIdeal.Bridge

end
-- ==== Proof.lean ====
/-
  The edge-state update of a message-passing layer: a Pallas kernel against its jnp reference, over the extended reals.

  Both programs gather the sender's and the receiver's node features by the two rows of the edge index (a negative
  index wrapped once by the table's length, exactly as jnp indexing does), join them with the edge's state and its
  length into a 769-wide activation row per edge, and apply a two-layer perceptron with the gate `h · σ(h)`:

    out[e, j] = Σₖ gated (Σᵢ X[e, i] · W₁[i, k] + b₁[k]) · W₂[k, j] + b₂[j].

  The kernel runs the perceptron on 3200 edges per grid point with the activations and weights cast to a sixteen-bit
  format (the identity on extended reals) and the logistic as one operation; the reference runs it on all edges at
  once and spells the logistic out.  The two results are the same function of the arguments entry by entry, with no
  rearrangement of any sum: the activation array is literally the same term on both sides, a matrix-unit product
  into a zero accumulator and the host's product are the same sum over the contracted coordinate, and the spelt-out
  logistic is the logistic.  The inputs' finiteness is not needed.

  The frames of the two kernel programs are the region's launch (host operations, then 100 grid points each
  reading five staged buffers and overwriting the sixth); the reference's frame is its run with the result dropped.
-/
import proofs.«105628_j35691178230144_1_alg».proof.Defs
import proofs.«105628_j35691178230144_1_alg».proof.Proof.Gen.Kernel
import proofs.«105628_j35691178230144_1_alg».proof.Proof.Gen.KernelIdeal
import proofs.«105628_j35691178230144_1_alg».proof.Proof.Gen.ReferenceIdeal
import proofs.«105628_j35691178230144_1_alg».proof.Proof.Gen.Pre_finite_inputs
import proofs.«105628_j35691178230144_1_alg».proof.Proof.KernelRegion
import proofs.«105628_j35691178230144_1_alg».proof.Proof.KernelIdealValue
import proofs.«105628_j35691178230144_1_alg».proof.Proof.RefValue
import Idealize.ShloMosaic.Lib.StableHlo.Run
import Idealize.ShloMosaic.Adequacy
import Idealize.ShloMosaic.Init

set_option maxRecDepth 16384

noncomputable section

/-! ## What the idealized kernel's region stages, in terms of the arguments -/

namespace Cert.KernelIdeal.Staged

open Cert.KernelIdeal Cert.KernelIdeal.Gen Cert.KernelIdeal.Region
open Idealize.ShloMosaic Idealize.ShloMosaic.TcCoe Idealize.SL.Sem Idealize.ShloMosaic.ValueIdx Idealize.ShloMosaic.StableHlo

variable (m : (ℓ : Loc nD τ sig) → Buf (Elt Ideal) ℓ)

/-- The activation array is the reference's joined array of the same arguments: the same host operations, and the
    cast to sixteen bits is the identity. -/
theorem activation (c : Dev nD) :
    (atEntry m c main_v20 : S320000x769.Idx → EReal)
      = Cert.ReferenceIdeal.Read.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  dsimp only [atEntry, hostOps0]; after_results; rfl

/-- The first weight matrix is the argument (cast: the identity). -/
theorem weights1 (c : Dev nD) : (atEntry m c main_v21 : S769x256.Idx → EReal) = (m ((c.tc : Thread Cert.KernelIdeal.nD Cert.KernelIdeal.τ).loc Cert.KernelIdeal.main_arg4)) := by
  dsimp only [atEntry, hostOps0]; after_results; rfl

/-- The second weight matrix is the argument (cast: the identity). -/
theorem weights2 (c : Dev nD) : (atEntry m c main_v22 : S256x256.Idx → EReal) = (m ((c.tc : Thread Cert.KernelIdeal.nD Cert.KernelIdeal.τ).loc Cert.KernelIdeal.main_arg6)) := by
  dsimp only [atEntry, hostOps0]; after_results; rfl

/-- The first bias row is the argument laid out as one row. -/
theorem bias1 (c : Dev nD) (k : Fin 256) : atEntry m c main_v23 (ix2 (0 : Fin 1) k) = (m ((c.tc : Thread Cert.KernelIdeal.nD Cert.KernelIdeal.τ).loc Cert.KernelIdeal.main_arg5)) (ix1 k) := by
  have e : (atEntry m c main_v23 : S1x256.Idx → EReal) = shapeCast S1x256 (m ((c.tc : Thread Cert.KernelIdeal.nD Cert.KernelIdeal.τ).loc Cert.KernelIdeal.main_arg5)) shapeCasts_S256_S1x256 := by
    dsimp only [atEntry, hostOps0]; after_results; rfl
  rw [e]
  exact shapeCast_apply _ _ (ix2 (0 : Fin 1) k) (ix1 k) (by
    rw [Shape.rowMajor_val_one, Shape.rowMajor_val_two]; show k.val = 0 * 256 + k.val; omega)

/-- The second bias row is the argument laid out as one row. -/
theorem bias2 (c : Dev nD) (j : Fin 256) : atEntry m c main_v24 (ix2 (0 : Fin 1) j) = (m ((c.tc : Thread Cert.KernelIdeal.nD Cert.KernelIdeal.τ).loc Cert.KernelIdeal.main_arg7)) (ix1 j) := by
  have e : (atEntry m c main_v24 : S1x256.Idx → EReal) = shapeCast S1x256 (m ((c.tc : Thread Cert.KernelIdeal.nD Cert.KernelIdeal.τ).loc Cert.KernelIdeal.main_arg7)) shapeCasts_S256_S1x256 := by
    dsimp only [atEntry, hostOps0]; after_results; rfl
  rw [e]
  exact shapeCast_apply _ _ (ix2 (0 : Fin 1) j) (ix1 j) (by
    rw [Shape.rowMajor_val_one, Shape.rowMajor_val_two]; show j.val = 0 * 256 + j.val; omega)

end Cert.KernelIdeal.Staged

/-! ## The claims -/

namespace Cert.Proof

open Idealize.ShloMosaic Idealize.ShloMosaic.TcCoe Idealize.SL.Sem Idealize.ShloMosaic.ValueIdx

theorem frame_kernel : Cert.frame_Kernel := fun m ρ _ => Cert.Kernel.Region.frame m ρ

theorem frame_kernel_ideal : Cert.frame_KernelIdeal := fun m ρ _ => Cert.KernelIdeal.Region.frame m ρ

theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments the idealized kernel's result array and the reference's result are,
    at every `(e, j)`, the edge update of row `e` of the one joined activation array. -/
theorem algebraic : Cert.algebraic_KernelIdeal_ReferenceIdeal := by
  intro m ρ m' ρ' _ hagree
  refine ⟨fun c => Cert.KernelIdeal.Result.staged m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v28_eq, h0, h1, h2, h3, h4, h5, h6, h7]
  funext i
  obtain ⟨e, j, rfl⟩ : ∃ (e : Fin 320000) (j : Fin 256), i = ix2 e j := ⟨i 0, i 1, eq_ix2 i⟩
  rw [Cert.ReferenceIdeal.Bridge.result_at]
  show _ = Cert.EdgeMlp.out (fun k => Cert.KernelIdeal.Region.atEntry m c Cert.KernelIdeal.main_v20 (ix2 e k))
    (fun a k => Cert.KernelIdeal.Region.atEntry m c Cert.KernelIdeal.main_v21 (ix2 a k))
    (fun k => Cert.KernelIdeal.Region.atEntry m c Cert.KernelIdeal.main_v23 (ix2 (0 : Fin 1) k))
    (fun k j => Cert.KernelIdeal.Region.atEntry m c Cert.KernelIdeal.main_v22 (ix2 k j))
    (fun j => Cert.KernelIdeal.Region.atEntry m c Cert.KernelIdeal.main_v24 (ix2 (0 : Fin 1) j)) j
  rw [show (fun k => Cert.KernelIdeal.Region.atEntry m c Cert.KernelIdeal.main_v23 (ix2 (0 : Fin 1) k)) = _ from
      funext fun k => Cert.KernelIdeal.Staged.bias1 m c k,
    show (fun j => Cert.KernelIdeal.Region.atEntry m c Cert.KernelIdeal.main_v24 (ix2 (0 : Fin 1) j)) = _ from
      funext fun j => Cert.KernelIdeal.Staged.bias2 m c j,
    Cert.KernelIdeal.Staged.activation m c, Cert.KernelIdeal.Staged.weights1 m c, Cert.KernelIdeal.Staged.weights2 m c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
